-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)) →
    ∃ (v0 : (c : Dev Cert.KernelIdeal.nD) → Buf (Elt Ideal) ((c.tc : Thread Cert.KernelIdeal.nD Cert.KernelIdeal.τ).loc Cert.KernelIdeal.main_v18)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v18) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v14) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S50000x128 : Shape := ⟨2, ![50000, 128]⟩
abbrev S640000x128 : Shape := ⟨2, ![640000, 128]⟩
abbrev S640000 : Shape := ⟨1, ![640000]⟩
abbrev S128x256 : Shape := ⟨2, ![128, 256]⟩
abbrev S_ : Shape := ⟨0, ![]⟩

class Facts : Prop where
  bcast_S_S50000x128 : S_.BroadcastsInDim S50000x128 (![] : Fin 0 → Fin S50000x128.rank)
  reducesTo_S50000x128_S_d0_1 : S50000x128.ReducesTo [0, 1] S_
  h_S_ : 0 < S_.numel
  bcast_S_S640000x128 : S_.BroadcastsInDim S640000x128 (![] : Fin 0 → Fin S640000x128.rank)
  reducesTo_S640000x128_S_d0_1 : S640000x128.ReducesTo [0, 1] S_
  bcast_S_S128x256 : S_.BroadcastsInDim S128x256 (![] : Fin 0 → Fin S128x256.rank)
  reducesTo_S128x256_S_d0_1 : S128x256.ReducesTo [0, 1] S_

variable [Facts]

def fn {F : FTy → Type} [FloatOps F] (main_arg0 : FVec F S50000x128 .f32) (main_arg1 : FVec F S640000x128 .f32) (main_arg2 : IVec S640000 32) (main_arg3 : FVec F S128x256 .f32) : IVec S_ 1 :=
  let main_v0 : FVec F S50000x128 .f32 := Host.absf main_arg0
  let main_cst : FVec F S_ .f32 := constant S_ .f32 0x7F800000#32
  let main_v1 : FVec F S50000x128 .f32 := broadcastInDim S50000x128 ![] bcast_S_S50000x128 main_cst
  let main_v2 : IVec S50000x128 1 := cmpf .olt main_v0 main_v1
  let main_c : IVec S_ 1 := constantI S_ 1 1#1
  let main_v3 : IVec S_ 1 := (fun x v => Host.reduce IntOp.andi x v reducesTo_S50000x128_S_d0_1 h_S_) main_v2 main_c
  let main_v4 : FVec F S640000x128 .f32 := Host.absf main_arg1
  let main_cst_0 : FVec F S_ .f32 := constant S_ .f32 0x7F800000#32
  let main_v5 : FVec F S640000x128 .f32 := broadcastInDim S640000x128 ![] bcast_S_S640000x128 main_cst_0
  let main_v6 : IVec S640000x128 1 := cmpf .olt main_v4 main_v5
  let main_c_1 : IVec S_ 1 := constantI S_ 1 1#1
  let main_v7 : IVec S_ 1 := (fun x v => Host.reduce IntOp.andi x v reducesTo_S640000x128_S_d0_1 h_S_) main_v6 main_c_1
  let main_v8 : IVec S_ 1 := andi main_v3 main_v7
  let main_v9 : FVec F S128x256 .f32 := Host.absf main_arg3
  let main_cst_2 : FVec F S_ .f32 := constant S_ .f32 0x7F800000#32
  let main_v10 : FVec F S128x256 .f32 := broadcastInDim S128x256 ![] bcast_S_S128x256 main_cst_2
  let main_v11 : IVec S128x256 1 := cmpf .olt main_v9 main_v10
  let main_c_3 : IVec S_ 1 := constantI S_ 1 1#1
  let main_v12 : IVec S_ 1 := (fun x v => Host.reduce IntOp.andi x v reducesTo_S128x256_S_d0_1 h_S_) main_v11 main_c_3
  let main_v13 : IVec S_ 1 := andi main_v8 main_v12
  main_v13
-- ==== Kernel.lean ====
abbrev S50000x128 : Shape := ⟨2, ![50000, 128]⟩
abbrev S640000x128 : Shape := ⟨2, ![640000, 128]⟩
abbrev S640000 : Shape := ⟨1, ![640000]⟩
abbrev S128x256 : Shape := ⟨2, ![128, 256]⟩
abbrev S_ : Shape := ⟨0, ![]⟩
abbrev S640000x1 : Shape := ⟨2, ![640000, 1]⟩
abbrev S50000 : Shape := ⟨1, ![50000]⟩
abbrev S50000x1 : Shape := ⟨2, ![50000, 1]⟩
abbrev S128x128 : Shape := ⟨2, ![128, 128]⟩
abbrev S2000x128 : Shape := ⟨2, ![2000, 128]⟩
abbrev S2000x1 : Shape := ⟨2, ![2000, 1]⟩

abbrev nBuf : Space → Nat
  | .hbm => 28
  | .vmem => 10
  | .smem => 0
  | _ => 0

abbrev bufTy : (tb : Table) → Fin (tcTables nBuf tb) → BufTy
  | .hbm, ⟨0, _⟩ => ⟨S50000x128, .f32⟩
  | .hbm, ⟨1, _⟩ => ⟨S640000x128, .f32⟩
  | .hbm, ⟨2, _⟩ => ⟨S640000, .i32⟩
  | .hbm, ⟨3, _⟩ => ⟨S128x256, .f32⟩
  | .hbm, ⟨4, _⟩ => ⟨S_, .f32⟩
  | .hbm, ⟨5, _⟩ => ⟨S50000x128, .f32⟩
  | .hbm, ⟨6, _⟩ => ⟨S640000x1, .i32⟩
  | .hbm, ⟨7, _⟩ => ⟨S50000x128, .f32⟩
  | .hbm, ⟨8, _⟩ => ⟨S_, .f32⟩
  | .hbm, ⟨9, _⟩ => ⟨S640000, .f32⟩
  | .hbm, ⟨10, _⟩ => ⟨S_, .f32⟩
  | .hbm, ⟨11, _⟩ => ⟨S50000, .f32⟩
  | .hbm, ⟨12, _⟩ => ⟨S640000x1, .i32⟩
  | .hbm, ⟨13, _⟩ => ⟨S50000, .f32⟩
  | .hbm, ⟨14, _⟩ => ⟨S_, .f32⟩
  | .hbm, ⟨15, _⟩ => ⟨S50000, .f32⟩
  | .hbm, ⟨16, _⟩ => ⟨S50000, .f32⟩
  | .hbm, ⟨17, _⟩ => ⟨S_, .f32⟩
  | .hbm, ⟨18, _⟩ => ⟨S50000, .f32⟩
  | .hbm, ⟨19, _⟩ => ⟨S50000, .f32⟩
  | .hbm, ⟨20, _⟩ => ⟨S50000x1, .f32⟩
  | .hbm, ⟨21, _⟩ => ⟨S128x128, .f32⟩
  | .hbm, ⟨22, _⟩ => ⟨S128x128, .f32⟩
  | .hbm, ⟨23, _⟩ => ⟨S128x128, .bf16⟩
  | .hbm, ⟨24, _⟩ => ⟨S128x128, .f32⟩
  | .hbm, ⟨25, _⟩ => ⟨S128x128, .f32⟩
  | .hbm, ⟨26, _⟩ => ⟨S128x128, .bf16⟩
  | .hbm, ⟨27, _⟩ => ⟨S50000x128, .f32⟩
  | .local _ .vmem, ⟨0, _⟩ => ⟨S2000x128, .f32⟩
  | .local _ .vmem, ⟨1, _⟩ => ⟨S2000x128, .f32⟩
  | .local _ .vmem, ⟨2, _⟩ => ⟨S2000x128, .f32⟩
  | .local _ .vmem, ⟨3, _⟩ => ⟨S2000x128, .f32⟩
  | .local _ .vmem, ⟨4, _⟩ => ⟨S2000x1, .f32⟩
  | .local _ .vmem, ⟨5, _⟩ => ⟨S2000x1, .f32⟩
  | .local _ .vmem, ⟨6, _⟩ => ⟨S128x128, .bf16⟩
  | .local _ .vmem, ⟨7, _⟩ => ⟨S128x128, .bf16⟩
  | .local _ .vmem, ⟨8, _⟩ => ⟨S2000x128, .f32⟩
  | .local _ .vmem, ⟨9, _⟩ => ⟨S2000x128, .f32⟩
  | _, _ => ⟨S50000x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_cst_0 : Ref sig .tc := ⟨.hbm, 8, rfl⟩
abbrev main_v3 : Ref sig .tc := ⟨.hbm, 9, rfl⟩
abbrev main_cst_1 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_cst_2 : Ref sig .tc := ⟨.hbm, 14, rfl⟩
abbrev main_v7 : Ref sig .tc := ⟨.hbm, 15, rfl⟩
abbrev main_v8 : Ref sig .tc := ⟨.hbm, 16, rfl⟩
abbrev main_cst_3 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg5_1 : Ref sig .tc := ⟨.vmem, 9, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem5_0 : DmaSem sig := 8
abbrev cc0_sem5_1 : DmaSem sig := 9

abbrev nD : Nat := 1
abbrev τ : Topo := Topo.v7x

variable {F : FTy → Type} [FloatOps F]

abbrev grid0 : Pipeline.Grid := ⟨1, ![25], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S2000x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S2000x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S2000x1 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S128x128 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S128x128 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S2000x128 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

class Facts₀ : Prop where
  bcast_S_S50000x128 : S_.BroadcastsInDim S50000x128 (![] : Fin 0 → Fin S50000x128.rank)
  bcast_S640000_S640000x1_0 : S640000.BroadcastsInDim S640000x1 (![0] : Fin 1 → Fin S640000x1.rank)
  bcast_S_S640000 : S_.BroadcastsInDim S640000 (![] : Fin 0 → Fin S640000.rank)
  bcast_S_S50000 : S_.BroadcastsInDim S50000 (![] : Fin 0 → Fin S50000.rank)
  shapeCasts_S50000_S50000x1 : S50000.ShapeCasts S50000x1
  slices_S128x256_S128x128_0_0 : S128x256.Slices ![0, 0] S128x128
  transposes_S128x128_S128x128_1_0 : S128x128.Transposes [1, 0] S128x128
  bitsLt_bf16_f32 : FTy.bits .bf16 < FTy.bits .f32
  slices_S128x256_S128x128_0_128 : S128x256.Slices ![0, 128] S128x128
  inb_S2000x1_S2000x1_0_0 : ∀ a, (![0, 0] : Fin 2 → Nat) a + S2000x1.size a ≤ S2000x1.size a
  h_S2000x1 : 0 < S2000x1.numel
  shapeCasts_S2000x1_S2000x1 : S2000x1.ShapeCasts S2000x1
  broadcasts_S2000x1_S2000x128 : S2000x1.Broadcasts S2000x128
  inb_S2000x128_S2000x128_0_0 : ∀ a, (![0, 0] : Fin 2 → Nat) a + S2000x128.size a ≤ S2000x128.size a
  h_S2000x128 : 0 < S2000x128.numel
  shapeCasts_S2000x128_S2000x128 : S2000x128.ShapeCasts S2000x128
  inb_S128x128_S128x128_0_0 : ∀ a, (![0, 0] : Fin 2 → Nat) a + S128x128.size a ≤ S128x128.size a
  h_S128x128 : 0 < S128x128.numel
  shapeCasts_S128x128_S128x128 : S128x128.ShapeCasts S128x128
  scatter_S50000x128_S640000x1_S640000x128_1_0_0_1_wf : ScatterDims.WF S50000x128 S640000x1 S640000x128 [1] [0] [0] 1
  scatter_S50000_S640000x1_S640000_n_0_0_1_wf : ScatterDims.WF S50000 S640000x1 S640000 [] [0] [0] 1
  dot_S2000x128_S128x128_S2000x128_1_0_0_1_n_n_wf : DotDims.WF S2000x128 S128x128 S2000x128 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S2000x128.size a ≤ S50000x128.size a
  hwx0_0 : ∀ i : grid0.Coords, EltTy.bits .f32 = 32 ∨ (Rect.block (s := S50000x128) S2000x128.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S2000x128.size a ≤ S50000x128.size a
  hwx0_1 : ∀ i : grid0.Coords, EltTy.bits .f32 = 32 ∨ (Rect.block (s := S50000x128) S2000x128.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S2000x1.size a ≤ S50000x1.size a
  hwx0_2 : ∀ i : grid0.Coords, EltTy.bits .f32 = 32 ∨ (Rect.block (s := S50000x1) S2000x1.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S128x128.size a ≤ S128x128.size a
  hwx0_3 : ∀ i : grid0.Coords, EltTy.bits .bf16 = 32 ∨ (Rect.block (s := S128x128) S128x128.size (cc0_transform_3 i) (hinb0_3 i)).WholeWords (EltTy.packing .bf16)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S128x128.size a ≤ S128x128.size a
  hwx0_4 : ∀ i : grid0.Coords, EltTy.bits .bf16 = 32 ∨ (Rect.block (s := S128x128) S128x128.size (cc0_transform_4 i) (hinb0_4 i)).WholeWords (EltTy.packing .bf16)
  hstage0_5 : ∀ j, (stage0_5 j).IsWhole
  nbuf0_5 : grid0.bufCount reads0_5 false = 2
  hreads0_5 : ∀ i i' : grid0.Coords, (∀ a, reads0_5 a = true → i a = i' a) → cc0_transform_5 i = cc0_transform_5 i'
  hinb0_5 : ∀ (i : grid0.Coords) a, (cc0_transform_5 i a + 1) * S2000x128.size a ≤ S50000x128.size a
  hwx0_5 : ∀ i : grid0.Coords, EltTy.bits .f32 = 32 ∨ (Rect.block (s := S50000x128) S2000x128.size (cc0_transform_5 i) (hinb0_5 i)).WholeWords (EltTy.packing .f32)

variable [Facts₀]

def scatter_S50000x128_S640000x1_S640000x128_1_0_0_1 : ScatterDims S50000x128 S640000x1 S640000x128 where
  updateWindowDims := [1]
  insertedWindowDims := [0]
  scatterDimsToOperandDims := [0]
  indexVectorDim := 1
  wf := scatter_S50000x128_S640000x1_S640000x128_1_0_0_1_wf
def scatter_S50000_S640000x1_S640000_n_0_0_1 : ScatterDims S50000 S640000x1 S640000 where
  updateWindowDims := []
  insertedWindowDims := [0]
  scatterDimsToOperandDims := [0]
  indexVectorDim := 1
  wf := scatter_S50000_S640000x1_S640000_n_0_0_1_wf
def dot_S2000x128_S128x128_S2000x128_1_0_0_1_n_n : DotDims S2000x128 S128x128 S2000x128 where
  lhsContracting := [1]
  rhsContracting := [0]
  lhsNonContracting := [0]
  rhsNonContracting := [1]
  lhsBatch := []
  rhsBatch := []
  wf := dot_S2000x128_S128x128_S2000x128_1_0_0_1_n_n_wf

abbrev win0_0 : Pipeline.Window sig grid0 :=
  Pipeline.Window.ofSpec (Memref.whole main_arg0) S2000x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v2) S2000x128.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v11) S2000x1.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v14) S128x128.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v17) S128x128.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v18) S2000x128.size cc0_transform_5 reads0_5 true false 2 stage0_5 sem0_5
    hrank0 hreads0_5 hinb0_5 nbuf0_5 (Memref.isWhole_whole _) hwx0_5 hstage0_5

abbrev win0 : Fin 6 → Pipeline.Window sig grid0 := fun | 0 => win0_0 | 1 => win0_1 | 2 => win0_2 | 3 => win0_3 | 4 => win0_4 | 5 => win0_5 | ⟨_ + 6, h⟩ => absurd h (Nat.not_lt.2 (Nat.le_add_left _ _))
abbrev spec0 : Fin 6 → Pipeline.WinSpec sig grid0.rank := fun w => (win0 w).toWinSpec

class Facts : Prop extends Facts₀ where

variable [Facts]
-- ==== ReferenceIdeal.lean ====
abbrev S50000x128 : Shape := ⟨2, ![50000, 128]⟩
abbrev S640000x128 : Shape := ⟨2, ![640000, 128]⟩
abbrev S640000 : Shape := ⟨1, ![640000]⟩
abbrev S128x256 : Shape := ⟨2, ![128, 256]⟩
abbrev S_ : Shape := ⟨0, ![]⟩
abbrev S640000x1 : Shape := ⟨2, ![640000, 1]⟩
abbrev S50000 : Shape := ⟨1, ![50000]⟩
abbrev S50000x1 : Shape := ⟨2, ![50000, 1]⟩
abbrev S50000x256 : Shape := ⟨2, ![50000, 256]⟩
abbrev S256x128 : Shape := ⟨2, ![256, 128]⟩

abbrev nBuf : Space → Nat
  | .hbm => 23
  | .vmem => 0
  | .smem => 0
  | _ => 0

abbrev bufTy : (tb : Table) → Fin (tcTables nBuf tb) → BufTy
  | .hbm, ⟨0, _⟩ => ⟨S50000x128, .f32⟩
  | .hbm, ⟨1, _⟩ => ⟨S640000x128, .f32⟩
  | .hbm, ⟨2, _⟩ => ⟨S640000, .i32⟩
  | .hbm, ⟨3, _⟩ => ⟨S128x256, .f32⟩
  | .hbm, ⟨4, _⟩ => ⟨S_, .f32⟩
  | .hbm, ⟨5, _⟩ => ⟨S50000x128, .f32⟩
  | .hbm, ⟨6, _⟩ => ⟨S640000x1, .i32⟩
  | .hbm, ⟨7, _⟩ => ⟨S50000x128, .f32⟩
  | .hbm, ⟨8, _⟩ => ⟨S_, .f32⟩
  | .hbm, ⟨9, _⟩ => ⟨S640000, .f32⟩
  | .hbm, ⟨10, _⟩ => ⟨S_, .f32⟩
  | .hbm, ⟨11, _⟩ => ⟨S50000, .f32⟩
  | .hbm, ⟨12, _⟩ => ⟨S640000x1, .i32⟩
  | .hbm, ⟨13, _⟩ => ⟨S50000, .f32⟩
  | .hbm, ⟨14, _⟩ => ⟨S_, .f32⟩
  | .hbm, ⟨15, _⟩ => ⟨S50000, .f32⟩
  | .hbm, ⟨16, _⟩ => ⟨S50000, .f32⟩
  | .hbm, ⟨17, _⟩ => ⟨S50000x1, .f32⟩
  | .hbm, ⟨18, _⟩ => ⟨S50000x128, .f32⟩
  | .hbm, ⟨19, _⟩ => ⟨S50000x128, .f32⟩
  | .hbm, ⟨20, _⟩ => ⟨S50000x256, .f32⟩
  | .hbm, ⟨21, _⟩ => ⟨S256x128, .f32⟩
  | .hbm, ⟨22, _⟩ => ⟨S50000x128, .f32⟩
  | _, _ => ⟨S50000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_cst_0 : Ref sig .tc := ⟨.hbm, 8, rfl⟩
abbrev main_v3 : Ref sig .tc := ⟨.hbm, 9, rfl⟩
abbrev main_cst_1 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_cst_2 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩

abbrev nD : Nat := 1
abbrev τ : Topo := Topo.v7x

variable {F : FTy → Type} [FloatOps F]

class Facts₀ : Prop where
  bcast_S_S50000x128 : S_.BroadcastsInDim S50000x128 (![] : Fin 0 → Fin S50000x128.rank)
  bcast_S640000_S640000x1_0 : S640000.BroadcastsInDim S640000x1 (![0] : Fin 1 → Fin S640000x1.rank)
  bcast_S_S640000 : S_.BroadcastsInDim S640000 (![] : Fin 0 → Fin S640000.rank)
  bcast_S_S50000 : S_.BroadcastsInDim S50000 (![] : Fin 0 → Fin S50000.rank)
  bcast_S50000_S50000x1_0 : S50000.BroadcastsInDim S50000x1 (![0] : Fin 1 → Fin S50000x1.rank)
  bcast_S50000x1_S50000x128_0_1 : S50000x1.BroadcastsInDim S50000x128 (![0, 1] : Fin 2 → Fin S50000x128.rank)
  concatenates_S50000x128_S50000x128_S50000x256_d1 : Shape.Concatenates [S50000x128, S50000x128] S50000x256 1
  transposes_S128x256_S256x128_1_0 : S128x256.Transposes [1, 0] S256x128
  scatter_S50000x128_S640000x1_S640000x128_1_0_0_1_wf : ScatterDims.WF S50000x128 S640000x1 S640000x128 [1] [0] [0] 1
  scatter_S50000_S640000x1_S640000_n_0_0_1_wf : ScatterDims.WF S50000 S640000x1 S640000 [] [0] [0] 1
  dot_S50000x256_S256x128_S50000x128_1_0_0_1_n_n_wf : DotDims.WF S50000x256 S256x128 S50000x128 [1] [0] [0] [1] [] []

variable [Facts₀]

def scatter_S50000x128_S640000x1_S640000x128_1_0_0_1 : ScatterDims S50000x128 S640000x1 S640000x128 where
  updateWindowDims := [1]
  insertedWindowDims := [0]
  scatterDimsToOperandDims := [0]
  indexVectorDim := 1
  wf := scatter_S50000x128_S640000x1_S640000x128_1_0_0_1_wf
def scatter_S50000_S640000x1_S640000_n_0_0_1 : ScatterDims S50000 S640000x1 S640000 where
  updateWindowDims := []
  insertedWindowDims := [0]
  scatterDimsToOperandDims := [0]
  indexVectorDim := 1
  wf := scatter_S50000_S640000x1_S640000_n_0_0_1_wf
def dot_S50000x256_S256x128_S50000x128_1_0_0_1_n_n : DotDims S50000x256 S256x128 S50000x128 where
  lhsContracting := [1]
  rhsContracting := [0]
  lhsNonContracting := [0]
  rhsNonContracting := [1]
  lhsBatch := []
  rhsBatch := []
  wf := dot_S50000x256_S256x128_S50000x128_1_0_0_1_n_n_wf

class Facts : Prop extends Facts₀ where

variable [Facts]
-- ==== Proof.AggSpec.lean ====
/-
  The mathematics the two programs share, stated without either program.

  For a node `n` (50000 of them) and an output column `o` (128 of them) the result is the row `[self n | agg n]`
  of 256 entries, contracted with row `o` of the 128 x 256 weight matrix:

      out n o = sum over k < 128 of  self n k * W o k   +   sum over k < 128 of  agg n k * W o (128 + k).

  `agg n k` is the neighbours' segment sum at `(n, k)` divided by the node's neighbour count clamped below at one.
  One program divides; the other multiplies by the reciprocal `1 / count` computed beforehand. On the extended reals
  the quotient `x / y` is `x * y⁻¹` whenever `y` is not zero, so `x * (1 / y) = x * (1 * y⁻¹) = x / y` there, at
  the infinities too; and a count clamped below at one is never zero. Nothing here needs the inputs to be finite.

  The one other law used is that a sum over 256 positions is the sum over its first 128 plus the sum over its last
  128: associativity and commutativity of addition only.
-/
import Idealize.ShloMosaic.PureOps.Ideal
import Idealize.ShloMosaic.PureOps.Ideal.Laws
import Idealize.ShloMosaic.Lib.ValueIdx
import Idealize.ShloMosaic.Lib.Pipeline.Value
import Mathlib.Algebra.BigOperators.Fin

noncomputable section

open scoped BigOperators

namespace Cert.AggProj

open Idealize.ShloMosaic Idealize.ShloMosaic.ValueIdx

/-- Nodes by features. -/
abbrev SNodeFeat : Shape := ⟨2, ![50000, 128]⟩
/-- One entry per node. -/
abbrev SNode : Shape := ⟨1, ![50000]⟩
/-- The weight matrix: output columns by the 256 entries of a concatenated row. -/
abbrev SWeight : Shape := ⟨2, ![128, 256]⟩
/-- Edges by features. -/
abbrev SEdgeFeat : Shape := ⟨2, ![640000, 128]⟩
/-- One entry per edge. -/
abbrev SEdge : Shape := ⟨1, ![640000]⟩
/-- One entry per edge, as a column. -/
abbrev SEdgeCol : Shape := ⟨2, ![640000, 1]⟩
/-- A scalar. -/
abbrev SScalar : Shape := ⟨0, ![]⟩

/-! ## The constant one, and a count clamped below at one -/

/-- The word `0x3F800000` is the real number one. -/
theorem one_word : Ideal.ofBits .f32 0x3F800000#32 = 1 := by
  simp [Ideal.ofBits, Ideal.ieee, -EReal.coe_mul]; norm_num

/-- Whatever the count is, its maximum with one is at least one, hence not zero. -/
theorem max_one_ne_zero (c : EReal) : max c 1 ≠ 0 :=
  ne_of_gt (lt_of_lt_of_le zero_lt_one (le_max_right c 1))

/-- The same with the one spelt as its word. -/
theorem max_one_word_ne_zero (c : EReal) : max c (Ideal.ofBits .f32 0x3F800000#32) ≠ 0 := by
  rw [one_word]; exact max_one_ne_zero c

/-! ## What both programs compute first: segment sums and clamped counts

Both programs begin with the same operations: the edges' features are added up per source node onto an array of
zeros, and so are 640000 ones, giving each node's neighbour count, which is then clamped below at one. Neither sum
is ever opened here: each is carried as ONE function of the edge features and the source indices, and all that is
used of the count is that its maximum with one is not zero. -/

/-- The neighbours' features added up per source node. -/
def segSum (sd : ScatterDims SNodeFeat SEdgeCol SEdgeFeat)
    (h0 : SScalar.BroadcastsInDim SNodeFeat (![] : Fin 0 → Fin SNodeFeat.rank))
    (hi : SEdge.BroadcastsInDim SEdgeCol (![0] : Fin 1 → Fin SEdgeCol.rank))
    (nbr : FVec Ideal SEdgeFeat .f32) (idx : IVec SEdge 32) : FVec Ideal SNodeFeat .f32 :=
  Host.scatterAdd sd (broadcastInDim SNodeFeat ![] h0 (constant (F := Ideal) SScalar .f32 0x00000000#32))
    (broadcastInDim SEdgeCol ![0] hi idx) nbr

/-- Each node's neighbour count, clamped below at one. -/
def clampedCount (sd : ScatterDims SNode SEdgeCol SEdge)
    (h0 : SScalar.BroadcastsInDim SNode (![] : Fin 0 → Fin SNode.rank))
    (hi : SEdge.BroadcastsInDim SEdgeCol (![0] : Fin 1 → Fin SEdgeCol.rank))
    (h1 : SScalar.BroadcastsInDim SEdge (![] : Fin 0 → Fin SEdge.rank))
    (idx : IVec SEdge 32) : FVec Ideal SNode .f32 :=
  maximumf
    (Host.scatterAdd sd (broadcastInDim SNode ![] h0 (constant (F := Ideal) SScalar .f32 0x00000000#32))
      (broadcastInDim SEdgeCol ![0] hi idx)
      (broadcastInDim SEdge ![] h1 (constant (F := Ideal) SScalar .f32 0x3F800000#32)))
    (broadcastInDim SNode ![] h0 (constant (F := Ideal) SScalar .f32 0x3F800000#32))

/-- A scalar one broadcast over the nodes reads one at every node. -/
theorem ones_at (h0 : SScalar.BroadcastsInDim SNode (![] : Fin 0 → Fin SNode.rank)) (n : SNode.Idx) :
    broadcastInDim SNode ![] h0 (constant (F := Ideal) SScalar .f32 0x3F800000#32) n = Ideal.ofBits .f32 0x3F800000#32 :=
  broadcastInDim_apply _ h0 _ n ix0 (fun a => a.elim0)

/-- A clamped count is never zero. -/
theorem clampedCount_ne_zero (sd : ScatterDims SNode SEdgeCol SEdge)
    (h0 : SScalar.BroadcastsInDim SNode (![] : Fin 0 → Fin SNode.rank))
    (hi : SEdge.BroadcastsInDim SEdgeCol (![0] : Fin 1 → Fin SEdgeCol.rank))
    (h1 : SScalar.BroadcastsInDim SEdge (![] : Fin 0 → Fin SEdge.rank))
    (idx : IVec SEdge 32) (n : SNode.Idx) : clampedCount sd h0 hi h1 idx n ≠ 0 := by
  unfold clampedCount
  rw [maximumf_apply, ones_at]
  exact max_one_word_ne_zero _

/-! ## Multiplying by the reciprocal is dividing, off zero -/

/-- For a divisor that is not zero, `x * (1 / y) = x / y` on the extended reals: both are `x * y⁻¹`. -/
theorem mul_one_div (x y : EReal) (hy : y ≠ 0) : x * Ideal.div 1 y = Ideal.div x y := by
  unfold Ideal.div
  rw [if_neg hy, if_neg hy, one_mul]

/-! ## The two halves of a concatenated row -/

/-- Position `k` of the first half. -/
abbrev lo (k : Fin 128) : Fin 256 := ⟨k.val, by omega⟩
/-- Position `k` of the second half. -/
abbrev hi (k : Fin 128) : Fin 256 := ⟨128 + k.val, by omega⟩

/-- A sum over the 256 positions is the sum over the first half plus the sum over the second. -/
theorem sum_halves (f : Fin 256 → EReal) :
    ∑ j : Fin 256, f j = ∑ k : Fin 128, f (lo k) + ∑ k : Fin 128, f (hi k) :=
  Fin.sum_univ_add (a := 128) (b := 128) f

/-! ## The result, as one function of the arrays -/

/-- Entry `(n, o)` of the result from the nodes' own features, the aggregated neighbour features and the weights. -/
def projAt (self agg : SNodeFeat.Idx → EReal) (W : SWeight.Idx → EReal) (n : Fin 50000) (o : Fin 128) : EReal :=
  ∑ k : Fin 128, self (ix2 n k) * W (ix2 o (lo k)) + ∑ k : Fin 128, agg (ix2 n k) * W (ix2 o (hi k))

/-- The whole result array. -/
def proj (self agg : SNodeFeat.Idx → EReal) (W : SWeight.Idx → EReal) : SNodeFeat.Idx → EReal :=
  fun i => projAt self agg W (i 0) (i 1)

/-- The aggregated neighbour features: the segment sum divided by the clamped count of its node. -/
def meanOf (seg : SNodeFeat.Idx → EReal) (cnt : SNode.Idx → EReal) : SNodeFeat.Idx → EReal :=
  fun i => Ideal.div (seg i) (cnt (ix1 (i 0)))

end Cert.AggProj

end
-- ==== Proof.LibBroadcastCol.lean ====
/-
  A column broadcast over many columns, read at an index (the companion of the library's one-row form
  `ValueIdx.broadcastTo_1b_ab_apply`).
-/
import Idealize.ShloMosaic.Lib.Pipeline.Value
import Idealize.ShloMosaic.Lib.ValueIdx

namespace Idealize.ShloMosaic.ValueIdx

open Idealize.ShloMosaic

/-- An `[a, 1]` array broadcast to `[a, b]` reads, at `(p, c)`, the operand's one column at row `p`: the unit axis
    is read at `0` whatever `c` is, the other axis at the index's own coordinate. -/
theorem broadcastTo_a1_ab_apply {α : Type} {a b : ℕ} (v : (⟨2, ![a, 1]⟩ : Shape).Idx → α)
    (h : (⟨2, ![a, 1]⟩ : Shape).Broadcasts ⟨2, ![a, b]⟩) (p : Fin a) (c : Fin b) :
    broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

end Idealize.ShloMosaic.ValueIdx
-- ==== Proof.BodyPay.lean ====
/-
  What one grid step computes, entry by entry.

  A step holds 2000 rows. From the rows' own features `s`, their segment sums `g`, their reciprocal counts `r`
  (one column) and the two 128 x 128 weight halves `a`, `b` it stores, at row `p` and column `q`,

      sum over k of  s p k * a k q   +   sum over k of  (g p k * r p 0) * b k q :

  two matrix products into zero accumulators, added. The narrowing of the operands to a shorter float format is
  the identity on extended reals, a shape cast to the same shape is the identity, and the reciprocal column is
  broadcast along the rows' 128 columns.
-/
import proofs.«176925_j54863912239180_1_alg».proof.Proof.Gen.KernelIdeal.Skeleton
import proofs.«176925_j54863912239180_1_alg».proof.Proof.LibBroadcastCol
import Idealize.ShloMosaic.Lib.Pipeline.Value
import Idealize.ShloMosaic.Lib.ValueIdx
import Idealize.ShloMosaic.PureOps.Ideal.Laws

noncomputable section

open scoped BigOperators

namespace Cert.AggProj.Body

open Idealize.ShloMosaic Idealize.ShloMosaic.ValueIdx Cert.KernelIdeal Cert.KernelIdeal.Gen

/-! ## The matrix product's operand indices, axis by axis -/

theorem lhs_mm_0 (i : S2000x128.Idx) (q : dot_S2000x128_S128x128_S2000x128_1_0_0_1_n_n.contr.Idx) :
    (dot_S2000x128_S128x128_S2000x128_1_0_0_1_n_n.lhsIdx i q 0).val = (i 0).val := by
  unfold DotDims.lhsIdx
  rw [dif_neg (show ¬(0 : Fin S2000x128.rank) ∈ dot_S2000x128_S128x128_S2000x128_1_0_0_1_n_n.lhsBatch by decide), dif_pos (show (0 : Fin S2000x128.rank) ∈ dot_S2000x128_S128x128_S2000x128_1_0_0_1_n_n.lhsNonContracting by decide)]
  rfl
theorem lhs_mm_1 (i : S2000x128.Idx) (q : dot_S2000x128_S128x128_S2000x128_1_0_0_1_n_n.contr.Idx) :
    (dot_S2000x128_S128x128_S2000x128_1_0_0_1_n_n.lhsIdx i q 1).val = (q ⟨0, by decide⟩).val :=
  dot_S2000x128_S128x128_S2000x128_1_0_0_1_n_n.lhsIdx_val_of_single rfl i q
theorem rhs_mm_0 (i : S2000x128.Idx) (q : dot_S2000x128_S128x128_S2000x128_1_0_0_1_n_n.contr.Idx) :
    (dot_S2000x128_S128x128_S2000x128_1_0_0_1_n_n.rhsIdx i q 0).val = (q ⟨0, by decide⟩).val :=
  dot_S2000x128_S128x128_S2000x128_1_0_0_1_n_n.rhsIdx_val_of_single rfl i q
theorem rhs_mm_1 (i : S2000x128.Idx) (q : dot_S2000x128_S128x128_S2000x128_1_0_0_1_n_n.contr.Idx) :
    (dot_S2000x128_S128x128_S2000x128_1_0_0_1_n_n.rhsIdx i q 1).val = (i 1).val := by
  unfold DotDims.rhsIdx
  rw [dif_neg (show ¬(1 : Fin S128x128.rank) ∈ dot_S2000x128_S128x128_S2000x128_1_0_0_1_n_n.rhsBatch by decide), dif_pos (show (1 : Fin S128x128.rank) ∈ dot_S2000x128_S128x128_S2000x128_1_0_0_1_n_n.rhsNonContracting by decide)]
  rfl

/-- A 2000 x 128 by 128 x 128 product into a zero accumulator, at row `p` and column `q`: the sum over the
    contracted position `k` of left `(p, k)` times right `(k, q)`. -/
theorem matmul_at (l : FVec Ideal S2000x128 .bf16) (r : FVec Ideal S128x128 .bf16) (p : Fin 2000) (q : Fin 128) :
    matmul dot_S2000x128_S128x128_S2000x128_1_0_0_1_n_n none l r (constant (F := Ideal) S2000x128 .f32 0x00000000#32) (ix2 p q)
      = ∑ k : Fin 128, l (ix2 p k) * r (ix2 k q) := by
  simp only [matmul]
  rw [Ideal.matmul_constant_zero_apply, ← Equiv.sum_comp (contrEquiv1 dot_S2000x128_S128x128_S2000x128_1_0_0_1_n_n 128 rfl rfl).symm]
  refine Finset.sum_congr rfl fun k _ => ?_
  have hk := contrEquiv1_symm_val dot_S2000x128_S128x128_S2000x128_1_0_0_1_n_n 128 rfl rfl k
  have el : dot_S2000x128_S128x128_S2000x128_1_0_0_1_n_n.lhsIdx (ix2 p q) ((contrEquiv1 dot_S2000x128_S128x128_S2000x128_1_0_0_1_n_n 128 rfl rfl).symm k) = ix2 p k := funext fun a => Fin.ext (by
    match a with
    | ⟨0, _⟩ => exact lhs_mm_0 _ _
    | ⟨1, _⟩ => exact (lhs_mm_1 _ _).trans hk)
  have er : dot_S2000x128_S128x128_S2000x128_1_0_0_1_n_n.rhsIdx (ix2 p q) ((contrEquiv1 dot_S2000x128_S128x128_S2000x128_1_0_0_1_n_n 128 rfl rfl).symm k) = ix2 k q := funext fun a => Fin.ext (by
    match a with
    | ⟨0, _⟩ => exact (rhs_mm_0 _ _).trans hk
    | ⟨1, _⟩ => exact rhs_mm_1 _ _)
  rw [el, er]

/-- The stored value at row `p`, column `q` of a step, from the step's loaded blocks. -/
theorem pay_at (r : Vec Ideal S2000x1 .f32) (g s : Vec Ideal S2000x128 .f32) (a b : Vec Ideal S128x128 .bf16)
    (p : Fin 2000) (q : Fin 128) :
    k0_pay1 (F := Ideal) r g s a b (ix2 p q)
      = ∑ k : Fin 128, s (ix2 p k) * a (ix2 k q) + ∑ k : Fin 128, (g (ix2 p k) * r (ix2 p (0 : Fin 1))) * b (ix2 k q) := by
  unfold k0_pay1
  rw [addf_apply, matmul_at, matmul_at]
  refine congrArg₂ (· + ·) (Finset.sum_congr rfl fun k _ => ?_) (Finset.sum_congr rfl fun k _ => ?_)
  · rw [truncf_apply, shapeCast_self]
  · rw [truncf_apply, mulf_apply, shapeCast_self, shapeCast_self, shapeCast_self, shapeCast_self, broadcastTo_a1_ab_apply]

end Cert.AggProj.Body

end
-- ==== Proof.HostFound.lean ====
/-
  What the grid finds in its windows' arrays.

  Before the grid runs, the program computes on the host: the segment sums (one window's array), the reciprocal of
  each node's clamped neighbour count laid out as a column (another), and the two halves of the weight matrix, each
  transposed (two more). Read at an index: the reciprocal column at node `n` is `1 / count n`, the first weight
  half at `(k, q)` is `W q k`, the second `W q (128 + k)`.
-/
import proofs.«176925_j54863912239180_1_alg».proof.Proof.Gen.KernelIdeal.Frame
import proofs.«176925_j54863912239180_1_alg».proof.Proof.AggSpec
import Idealize.ShloMosaic.Lib.StableHlo.Run
import Idealize.ShloMosaic.Lib.Pipeline.Value
import Idealize.ShloMosaic.Lib.ValueIdx

noncomputable section

namespace Cert.AggProj.Found

open Idealize.ShloMosaic Idealize.ShloMosaic.TcCoe Idealize.ShloMosaic.ValueIdx Idealize.SL.Sem Idealize.ShloMosaic.StableHlo
open Cert.KernelIdeal Cert.KernelIdeal.Gen Cert.AggProj

variable (m : (ℓ : Loc nD τ sig) → Buf (Elt Ideal) ℓ)

/-- The edges' features as launched. -/
abbrev nbrOf (c : Dev nD) : FVec Ideal SEdgeFeat .f32 := m ((c : Thread nD τ).loc main_arg1)
/-- The edges' source nodes as launched. -/
abbrev idxOf (c : Dev nD) : IVec SEdge 32 := m ((c : Thread nD τ).loc main_arg2)
/-- The weights as launched. -/
abbrev weightOf (c : Dev nD) : FVec Ideal SWeight .f32 := m ((c : Thread nD τ).loc main_arg3)

/-- The clamped counts of this program's run. -/
abbrev countOf (c : Dev nD) : FVec Ideal SNode .f32 :=
  clampedCount scatter_S50000_S640000x1_S640000_n_0_0_1 bcast_S_S50000 bcast_S640000_S640000x1_0 bcast_S_S640000 (idxOf m c)

/-- One over a count array, at node `n`: the broadcast one over the count there. -/
theorem recip_at (cnt : FVec Ideal SNode .f32) (n : Fin 50000) :
    Host.divf (broadcastInDim S50000 ![] bcast_S_S50000 (constant (F := Ideal) S_ .f32 0x3F800000#32)) cnt (ix1 n)
      = Ideal.div 1 (cnt (ix1 n)) := by
  show Ideal.div (broadcastInDim S50000 ![] bcast_S_S50000 (constant (F := Ideal) S_ .f32 0x3F800000#32) (ix1 n)) (cnt (ix1 n)) = _
  rw [ones_at, one_word]

/-- The segment-sum window's array is the shared segment sum of the launched edge features and indices. -/
theorem seg_found (c : Dev nD) :
    (V m c main_v2 : S50000x128.Idx → EReal)
      = segSum scatter_S50000x128_S640000x1_S640000x128_1_0_0_1 bcast_S_S50000x128 bcast_S640000_S640000x1_0 (nbrOf m c) (idxOf m c) := by
  dsimp only [V, hostOps0]
  after_results
  rfl

/-- The reciprocal window's array: one over the clamped count, reshaped to a column. -/
theorem inv_found (c : Dev nD) :
    (V m c main_v11 : S50000x1.Idx → EReal)
      = shapeCast S50000x1
          (Host.divf (broadcastInDim S50000 ![] bcast_S_S50000 (constant (F := Ideal) S_ .f32 0x3F800000#32)) (countOf m c))
          shapeCasts_S50000_S50000x1 := by
  dsimp only [V, hostOps0]
  after_results
  rfl

/-- At node `n` the reciprocal column holds `1 / count n`. -/
theorem inv_at (c : Dev nD) (n : Fin 50000) :
    V m c main_v11 (ix2 n (0 : Fin 1)) = Ideal.div 1 (countOf m c (ix1 n)) := by
  rw [inv_found]
  refine (shapeCast_apply _ shapeCasts_S50000_S50000x1 (ix2 n (0 : Fin 1)) (ix1 n) ?_).trans ?_
  · rw [Shape.rowMajor_val_one, Shape.rowMajor_val_two]
    show n.val = n.val * 1 + 0
    omega
  · exact recip_at (countOf m c) n

/-- The first weight half, transposed: at `(k, q)` the weight of output column `q` at position `k`. -/
theorem wself_at (c : Dev nD) (k q : Fin 128) :
    V m c main_v14 (ix2 k q) = weightOf m c (ix2 q (lo k)) := by
  have e : (V m c main_v14 : S128x128.Idx → EReal)
      = truncf .bf16 (transpose S128x128 [1, 0] (extractStridedSlice S128x128 ![0, 0] (weightOf m c) slices_S128x256_S128x128_0_0)
          transposes_S128x128_S128x128_1_0) bitsLt_bf16_f32 := by
    dsimp only [V, hostOps0]
    after_results
  rw [e, truncf_apply]
  refine (transpose_apply [1, 0] _ transposes_S128x128_S128x128_1_0 (ix2 k q) (ix2 q k)
    (fun b => by match b with | ⟨0, _⟩ => rfl | ⟨1, _⟩ => rfl)).trans ?_
  exact extractStridedSlice_apply ![0, 0] _ slices_S128x256_S128x128_0_0 (ix2 q k) (ix2 q (lo k))
    (fun a => by
      match a with
      | ⟨0, _⟩ => show q.val = 0 + q.val; omega
      | ⟨1, _⟩ => show k.val = 0 + k.val; omega)

/-- The second weight half, transposed: at `(k, q)` the weight of output column `q` at position `128 + k`. -/
theorem wnbr_at (c : Dev nD) (k q : Fin 128) :
    V m c main_v17 (ix2 k q) = weightOf m c (ix2 q (hi k)) := by
  have e : (V m c main_v17 : S128x128.Idx → EReal)
      = truncf .bf16 (transpose S128x128 [1, 0] (extractStridedSlice S128x128 ![0, 128] (weightOf m c) slices_S128x256_S128x128_0_128)
          transposes_S128x128_S128x128_1_0) bitsLt_bf16_f32 := by
    dsimp only [V, hostOps0]
    after_results
  rw [e, truncf_apply]
  refine (transpose_apply [1, 0] _ transposes_S128x128_S128x128_1_0 (ix2 k q) (ix2 q k)
    (fun b => by match b with | ⟨0, _⟩ => rfl | ⟨1, _⟩ => rfl)).trans ?_
  exact extractStridedSlice_apply ![0, 128] _ slices_S128x256_S128x128_0_128 (ix2 q k) (ix2 q (hi k))
    (fun a => by
      match a with
      | ⟨0, _⟩ => show q.val = 0 + q.val; omega
      | ⟨1, _⟩ => show 128 + k.val = 128 + k.val; rfl)

end Cert.AggProj.Found

end
-- ==== Proof.KernelArr.lean ====
/-
  From grid steps to the whole result array.

  Step `t` of 25 works on rows `2000 t .. 2000 t + 1999`: it reads those rows of the nodes' features, of the
  segment sums and of the reciprocal column, and both weight halves whole, and writes those rows of the result. So
  what step `t` writes is rows `2000 t ..` of ONE function of the arrays the grid finds, the 25 row ranges cover
  the 50000 rows, and the result array is that function. With the arrays read as the host left them
  (the reciprocal column `1 / count`, the weight halves transposed) that function is the specification, once
  `x * (1 / count) = x / count` for a count that is not zero.
-/
import proofs.«176925_j54863912239180_1_alg».proof.Proof.Gen.KernelIdeal.Value
import proofs.«176925_j54863912239180_1_alg».proof.Proof.AggSpec
import proofs.«176925_j54863912239180_1_alg».proof.Proof.BodyPay
import proofs.«176925_j54863912239180_1_alg».proof.Proof.HostFound

set_option maxRecDepth 16384

noncomputable section

open scoped BigOperators

namespace Cert.AggProj.Kernel

open Idealize.ShloMosaic Idealize.ShloMosaic.TcCoe Idealize.ShloMosaic.ValueIdx Idealize.SL.Sem
open Idealize.ShloMosaic.Pipeline (Dat)
open Cert.KernelIdeal Cert.KernelIdeal.Gen Cert.AggProj Cert.AggProj.Found Cert.AggProj.Body

variable (m : (ℓ : Loc nD τ sig) → Buf (Elt Ideal) ℓ) (ρ : Dev nD → PrngReg)

theorem offsets_zero : (![0, 0] : Fin 2 → Nat) = fun _ => 0 := funext fun a => by fin_cases a <;> rfl

/-! ## One function of the arrays the grid finds -/

/-- Entry `(n, o)` from the arrays as the grid finds them: own features `s`, segment sums `g`, reciprocal column
    `r`, weight halves `a`, `b`. -/
def foundAt (s g : S50000x128.Idx → EReal) (r : S50000x1.Idx → EReal) (a b : S128x128.Idx → EReal)
    (n : Fin 50000) (o : Fin 128) : EReal :=
  ∑ k : Fin 128, s (ix2 n k) * a (ix2 k o) + ∑ k : Fin 128, (g (ix2 n k) * r (ix2 n (0 : Fin 1))) * b (ix2 k o)

/-- The whole array. -/
def found (s g : S50000x128.Idx → EReal) (r : S50000x1.Idx → EReal) (a b : S128x128.Idx → EReal) :
    S50000x128.Idx → EReal :=
  fun i => foundAt s g r a b (i 0) (i 1)

/-! ## Where each window's block sits at step `t` -/

/-- The printed index maps over the 25 steps: the row-blocked windows sit at block row `t`, block column 0; the
    weight halves at block (0, 0). -/
theorem idx_facts : ∀ t : Fin cfg0.N,
    win0_0.index t (0 : Fin 2) = t.val ∧ win0_0.index t (1 : Fin 2) = 0
    ∧ win0_1.index t (0 : Fin 2) = t.val ∧ win0_1.index t (1 : Fin 2) = 0
    ∧ win0_2.index t (0 : Fin 2) = t.val ∧ win0_2.index t (1 : Fin 2) = 0
    ∧ win0_3.index t (0 : Fin 2) = 0 ∧ win0_3.index t (1 : Fin 2) = 0
    ∧ win0_4.index t (0 : Fin 2) = 0 ∧ win0_4.index t (1 : Fin 2) = 0
    ∧ win0_5.index t (0 : Fin 2) = t.val ∧ win0_5.index t (1 : Fin 2) = 0 :=
  (by decide +kernel : ∀ t : Fin grid0.N, _)

theorem step_lt (t : Fin cfg0.N) : t.val < 25 := lt_of_lt_of_eq t.isLt N_0

/-- Row `p` of step `t`'s block of the nodes' features is row `2000 t + p` of the array. -/
theorem self_blk (c : Dev nD) (t : Fin cfg0.N) (p : Fin 2000) (k : Fin 128) (n : Fin 50000) (hn : n.val = t.val * 2000 + p.val) :
    iblk m c 0 t (ix2 p k) = V m c main_arg0 (ix2 n k) := by
  obtain ⟨e0, e1, -⟩ := idx_facts t
  show V m c main_arg0 (((cfg0.win 0).blk t).view.emb (ix2 p k)) = V m c main_arg0 (ix2 n k)
  refine congrArg (V m c main_arg0) (funext fun a => Fin.ext ?_)
  match a with
  | ⟨0, _⟩ => show win0_0.index t (0 : Fin 2) * 2000 + 1 * p.val = n.val; omega
  | ⟨1, _⟩ => show win0_0.index t (1 : Fin 2) * 128 + 1 * k.val = k.val; omega

/-- The same for the segment sums. -/
theorem seg_blk (c : Dev nD) (t : Fin cfg0.N) (p : Fin 2000) (k : Fin 128) (n : Fin 50000) (hn : n.val = t.val * 2000 + p.val) :
    iblk m c 1 t (ix2 p k) = V m c main_v2 (ix2 n k) := by
  obtain ⟨-, -, e0, e1, -⟩ := idx_facts t
  show V m c main_v2 (((cfg0.win 1).blk t).view.emb (ix2 p k)) = V m c main_v2 (ix2 n k)
  refine congrArg (V m c main_v2) (funext fun a => Fin.ext ?_)
  match a with
  | ⟨0, _⟩ => show win0_1.index t (0 : Fin 2) * 2000 + 1 * p.val = n.val; omega
  | ⟨1, _⟩ => show win0_1.index t (1 : Fin 2) * 128 + 1 * k.val = k.val; omega

/-- The same for the reciprocal column. -/
theorem inv_blk (c : Dev nD) (t : Fin cfg0.N) (p : Fin 2000) (n : Fin 50000) (hn : n.val = t.val * 2000 + p.val) :
    iblk m c 2 t (ix2 p (0 : Fin 1)) = V m c main_v11 (ix2 n (0 : Fin 1)) := by
  obtain ⟨-, -, -, -, e0, e1, -⟩ := idx_facts t
  show V m c main_v11 (((cfg0.win 2).blk t).view.emb (ix2 p (0 : Fin 1))) = V m c main_v11 (ix2 n (0 : Fin 1))
  refine congrArg (V m c main_v11) (funext fun a => Fin.ext ?_)
  match a with
  | ⟨0, _⟩ => show win0_2.index t (0 : Fin 2) * 2000 + 1 * p.val = n.val; omega
  | ⟨1, _⟩ => show win0_2.index t (1 : Fin 2) * 1 + 1 * 0 = 0; omega

/-- Each weight half is read whole at every step. -/
theorem wself_blk (c : Dev nD) (t : Fin cfg0.N) (k q : Fin 128) :
    iblk m c 3 t (ix2 k q) = V m c main_v14 (ix2 k q) := by
  obtain ⟨-, -, -, -, -, -, e0, e1, -⟩ := idx_facts t
  show V m c main_v14 (((cfg0.win 3).blk t).view.emb (ix2 k q)) = V m c main_v14 (ix2 k q)
  refine congrArg (V m c main_v14) (funext fun a => Fin.ext ?_)
  match a with
  | ⟨0, _⟩ => show win0_3.index t (0 : Fin 2) * 128 + 1 * k.val = k.val; omega
  | ⟨1, _⟩ => show win0_3.index t (1 : Fin 2) * 128 + 1 * q.val = q.val; omega

theorem wnbr_blk (c : Dev nD) (t : Fin cfg0.N) (k q : Fin 128) :
    iblk m c 4 t (ix2 k q) = V m c main_v17 (ix2 k q) := by
  obtain ⟨-, -, -, -, -, -, -, -, e0, e1, -⟩ := idx_facts t
  show V m c main_v17 (((cfg0.win 4).blk t).view.emb (ix2 k q)) = V m c main_v17 (ix2 k q)
  refine congrArg (V m c main_v17) (funext fun a => Fin.ext ?_)
  match a with
  | ⟨0, _⟩ => show win0_4.index t (0 : Fin 2) * 128 + 1 * k.val = k.val; omega
  | ⟨1, _⟩ => show win0_4.index t (1 : Fin 2) * 128 + 1 * q.val = q.val; omega

/-! ## What step `t` writes back -/

/-- Step `t` writes rows `2000 t ..` of `found` of the arrays the grid finds. -/
theorem flushed_eq (c : Dev nD) (t : Fin cfg0.N) :
    (dats m 0 c).flushed 5 t = ((cfg0.win 5).blk t).view.read (Elt Ideal)
      (found (V m c main_arg0) (V m c main_v2) (V m c main_v11) (V m c main_v14) (V m c main_v17)) := by
  rw [Cert.KernelIdeal.Value.flushed5]
  unfold out0_5
  rw [View.canon_unit_zero offsets_zero]
  simp only [View.ld_unit_zero (S := S2000x128) offsets_zero, View.ld_unit_zero (S := S2000x1) offsets_zero,
    View.ld_unit_zero (S := S128x128) offsets_zero]
  obtain ⟨-, -, -, -, -, -, -, -, -, -, e0, e1⟩ := idx_facts t
  have ht := step_lt t
  funext j
  obtain ⟨p, q, rfl⟩ : ∃ (p : Fin 2000) (q : Fin 128), j = ix2 p q := ⟨j 0, j 1, eq_ix2 j⟩
  obtain ⟨n, hn⟩ : ∃ n : Fin 50000, n.val = t.val * 2000 + p.val := ⟨⟨t.val * 2000 + p.val, by have := p.isLt; omega⟩, rfl⟩
  have hemb : ((cfg0.win 5).blk t).view.emb (ix2 p q) = ix2 n q := funext fun a => Fin.ext (by
    match a with
    | ⟨0, _⟩ => show win0_5.index t (0 : Fin 2) * 2000 + 1 * p.val = n.val; omega
    | ⟨1, _⟩ => show win0_5.index t (1 : Fin 2) * 128 + 1 * q.val = q.val; omega)
  show k0_pay1 (F := Ideal) (iblk m c 2 t) (iblk m c 1 t) (iblk m c 0 t) (iblk m c 3 t) (iblk m c 4 t) (ix2 p q)
    = found (V m c main_arg0) (V m c main_v2) (V m c main_v11) (V m c main_v14) (V m c main_v17)
        (((cfg0.win 5).blk t).view.emb (ix2 p q))
  rw [hemb]
  show _ = foundAt (V m c main_arg0) (V m c main_v2) (V m c main_v11) (V m c main_v14) (V m c main_v17) n q
  refine (pay_at (iblk m c 2 t) (iblk m c 1 t) (iblk m c 0 t) (iblk m c 3 t) (iblk m c 4 t) p q).trans ?_
  unfold foundAt
  refine congrArg₂ (· + ·) (Finset.sum_congr rfl fun k _ => ?_) (Finset.sum_congr rfl fun k _ => ?_)
  · rw [self_blk m c t p k n hn, wself_blk m c t k q]
  · rw [seg_blk m c t p k n hn, inv_blk m c t p n hn, wnbr_blk m c t k q]

/-! ## The 25 row ranges cover the array -/

/-- An index is in step `t`'s block iff each coordinate is in the block's range on its axis. -/
theorem mem_blk (t : Fin cfg0.N) (i : S50000x128.Idx) :
    i ∈ ((cfg0.win 5).blk t).view.set ↔ ∀ a : Fin 2, win0_5.index t a * S2000x128.size a ≤ (i a).val
      ∧ (i a).val < win0_5.index t a * S2000x128.size a + S2000x128.size a := by
  show i ∈ ((View.whole main_v18).slice (win0_5.rect t)).set ↔ _
  rw [View.set_slice_whole, Rect.mem_set_unit]
  exact Iff.rfl

/-- Row `r` is written by step `r / 2000`. -/
theorem covered (i : S50000x128.Idx) :
    ∃ t : Fin cfg0.N, (cfg0.win 5).flush t = true ∧ i ∈ ((cfg0.win 5).blk t).view.set := by
  have hi0 : (i 0).val < 50000 := idx2_lt0 i
  have hi1 : (i 1).val < 128 := idx2_lt1 i
  have hN : (i 0).val / 2000 < cfg0.N := lt_of_lt_of_eq (by omega : (i 0).val / 2000 < 25) N_0.symm
  refine ⟨⟨(i 0).val / 2000, hN⟩, flush0_5 _, ?_⟩
  obtain ⟨-, -, -, -, -, -, -, -, -, -, e0, e1⟩ := idx_facts ⟨(i 0).val / 2000, hN⟩
  rw [mem_blk]
  intro a
  match a with
  | ⟨0, _⟩ =>
    show win0_5.index ⟨(i 0).val / 2000, hN⟩ (0 : Fin 2) * 2000 ≤ (i 0).val
      ∧ (i 0).val < win0_5.index ⟨(i 0).val / 2000, hN⟩ (0 : Fin 2) * 2000 + 2000
    rw [e0]
    show (i 0).val / 2000 * 2000 ≤ (i 0).val ∧ (i 0).val < (i 0).val / 2000 * 2000 + 2000
    omega
  | ⟨1, _⟩ =>
    show win0_5.index ⟨(i 0).val / 2000, hN⟩ (1 : Fin 2) * 128 ≤ (i 1).val
      ∧ (i 1).val < win0_5.index ⟨(i 0).val / 2000, hN⟩ (1 : Fin 2) * 128 + 128
    rw [e1]
    omega

/-- The result array after the run is `found` of the arrays the grid finds. -/
theorem final (c : Dev nD) :
    (dats m 0 c).arrAt 5 cfg0.N
      = found (V m c main_arg0) (V m c main_v2) (V m c main_v11) (V m c main_v14) (V m c main_v17) :=
  (dats m 0 c).arrAt_eq_of_cover 5 _ (fun t _ => flushed_eq m c t) covered

/-! ## The arrays the grid finds, read as the host left them -/

/-- With the reciprocal column `1 / count` and the transposed weight halves, `found` is the specification over the
    shared segment sum and clamped count: `x * (1 / count) = x / count` since a clamped count is not zero. -/
theorem found_eq (c : Dev nD) :
    found (V m c main_arg0) (V m c main_v2) (V m c main_v11) (V m c main_v14) (V m c main_v17)
      = proj (m ((c : Thread nD τ).loc main_arg0))
          (meanOf (segSum scatter_S50000x128_S640000x1_S640000x128_1_0_0_1 bcast_S_S50000x128 bcast_S640000_S640000x1_0 (nbrOf m c) (idxOf m c))
            (countOf m c))
          (weightOf m c) := by
  funext i
  obtain ⟨n, o, rfl⟩ : ∃ (n : Fin 50000) (o : Fin 128), i = ix2 n o := ⟨i 0, i 1, eq_ix2 i⟩
  show foundAt _ _ _ _ _ n o = projAt _ _ _ n o
  unfold foundAt projAt
  refine congrArg₂ (· + ·) (Finset.sum_congr rfl fun k _ => ?_) (Finset.sum_congr rfl fun k _ => ?_)
  · rw [V_main_arg0, wself_at]
  · rw [seg_found, inv_at, wnbr_at]
    show _ * Ideal.div 1 (countOf m c (ix1 n)) * _ = Ideal.div _ (countOf m c (ix1 n)) * _
    rw [mul_one_div _ _ (clampedCount_ne_zero _ _ _ _ _ _)]

/-! ## The run, read -/

/-- Every weakly fair execution ends with the result array at the specification of the launched arrays, and the
    launched arrays unchanged. -/
theorem run : θ_run defs (onTc (τ := τ) (main (F := Ideal))) ⟨m, fun _ => 0, ρ⟩ fun r => ∀ c : Dev nD,
      r.2.mem ((c : Thread nD τ).loc main_v18)
        = proj (m ((c : Thread nD τ).loc main_arg0))
            (meanOf (segSum scatter_S50000x128_S640000x1_S640000x128_1_0_0_1 bcast_S_S50000x128 bcast_S640000_S640000x1_0 (nbrOf m c) (idxOf m c))
              (countOf m c))
            (weightOf m c)
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3) :=
  (θ_run defs _ _).mono (fun r h c => ⟨(h c).1.trans ((final m c).trans (found_eq m c)), (h c).2⟩)
    (Cert.KernelIdeal.Value.run_blocks m ρ)

end Cert.AggProj.Kernel

end
-- ==== Proof.RefProj.lean ====
/-
  The reference computes the specification.

  Its last operation contracts the concatenated rows `[self n | agg n]` (256 entries) with the transposed weights.
  Read at `(n, o)` that is a sum over 256 positions; split at 128, the first half meets `self` and the second the
  quotient of the segment sum by the clamped count, each times `W o j` at the position's own column `j`.
-/
import proofs.«176925_j54863912239180_1_alg».proof.Proof.Gen.ReferenceIdeal.Read
import proofs.«176925_j54863912239180_1_alg».proof.Proof.AggSpec

noncomputable section

open scoped BigOperators

namespace Cert.AggProj.Ref

open Idealize.ShloMosaic Idealize.ShloMosaic.ValueIdx Cert.ReferenceIdeal Cert.ReferenceIdeal.Gen Cert.ReferenceIdeal.Read Cert.AggProj

variable (x0 : (⟨S50000x128, .f32⟩ : BufTy).Contents (Elt Ideal)) (x1 : (⟨S640000x128, .f32⟩ : BufTy).Contents (Elt Ideal))
  (x2 : (⟨S640000, .i32⟩ : BufTy).Contents (Elt Ideal)) (x3 : (⟨S128x256, .f32⟩ : BufTy).Contents (Elt Ideal))

/-- The transposed weights at `(j, o)` are the weights at `(o, j)`. -/
theorem weightT_at (n : Fin 50000) (o : Fin 128) (j : Fin 256) :
    val_main_v13 (F := Ideal) x3 (ridx_main_v14 (ix2 n o) j) = x3 (ix2 o j) := by
  rw [val_main_v13_apply]
  exact congrArg x3 (funext fun a => Fin.ext (by match a with | ⟨0, _⟩ => rfl | ⟨1, _⟩ => rfl))

/-- A position of the first half of a concatenated row holds the node's own feature. -/
theorem row_lo (n : Fin 50000) (o : Fin 128) (k : Fin 128) :
    val_main_v12 (F := Ideal) x0 x1 x2 (lidx_main_v14 (ix2 n o) (lo k)) = x0 (ix2 n k) := by
  unfold val_main_v12
  exact concatenate_pair_apply_left (t := S50000x256) (s₁ := S50000x128) (s₂ := S50000x128) 1 x0 _ _ (lidx_main_v14 (ix2 n o) (lo k)) rfl (ix2 n k)
    (fun b => by match b with | ⟨0, _⟩ => rfl | ⟨1, _⟩ => rfl)

/-- A position of the second half holds the segment sum over the clamped count. -/
theorem row_hi (n : Fin 50000) (o : Fin 128) (k : Fin 128) :
    val_main_v12 (F := Ideal) x0 x1 x2 (lidx_main_v14 (ix2 n o) (hi k))
      = meanOf (val_main_v2 (F := Ideal) x1 x2) (val_main_v8 (F := Ideal) x2) (ix2 n k) := by
  have e : val_main_v12 (F := Ideal) x0 x1 x2 (lidx_main_v14 (ix2 n o) (hi k)) = val_main_v11 (F := Ideal) x1 x2 (ix2 n k) := by
    unfold val_main_v12
    exact concatenate_pair_apply_right (t := S50000x256) (s₁ := S50000x128) (s₂ := S50000x128) 1 x0 _ _ (lidx_main_v14 (ix2 n o) (hi k)) rfl rfl (ix2 n k)
      (fun b hb => by
        match b, hb with
        | ⟨0, _⟩, _ => rfl
        | ⟨1, _⟩, hb => exact absurd rfl hb)
      (by show k.val + 128 = 128 + k.val; omega)
  rw [e, val_main_v11_apply, val_main_v10_apply, val_main_v9_apply]
  show Ideal.div _ _ = Ideal.div _ _
  exact congrArg (Ideal.div _) (congrArg (val_main_v8 (F := Ideal) x2)
    (funext fun a => Fin.ext (by match a with | ⟨0, _⟩ => rfl)))

/-- The reference's result is the specification of the nodes' features, the segment sum over the clamped count, and
    the weights. -/
theorem result_eq :
    val_main_v14 (F := Ideal) x0 x1 x2 x3
      = proj x0 (meanOf (val_main_v2 (F := Ideal) x1 x2) (val_main_v8 (F := Ideal) x2)) x3 := by
  funext i
  obtain ⟨n, o, rfl⟩ : ∃ (n : Fin 50000) (o : Fin 128), i = ix2 n o := ⟨i 0, i 1, eq_ix2 i⟩
  rw [val_main_v14_apply, sum_halves]
  show _ = projAt _ _ _ n o
  unfold projAt
  refine congrArg₂ (· + ·) (Finset.sum_congr rfl fun k _ => ?_) (Finset.sum_congr rfl fun k _ => ?_)
  · rw [row_lo, weightT_at]
  · rw [row_hi, weightT_at]

/-- The reference's segment sum is the shared one, by its definition. -/
theorem seg_is :
    val_main_v2 (F := Ideal) x1 x2
      = segSum scatter_S50000x128_S640000x1_S640000x128_1_0_0_1 bcast_S_S50000x128 bcast_S640000_S640000x1_0 x1 x2 := rfl

/-- The reference's clamped count is the shared one, by its definition. -/
theorem cnt_is :
    val_main_v8 (F := Ideal) x2
      = clampedCount scatter_S50000_S640000x1_S640000_n_0_0_1 bcast_S_S50000 bcast_S640000_S640000x1_0 bcast_S_S640000 x2 := rfl

/-- The reference's result over the shared segment sum and clamped count. -/
theorem result_spec :
    val_main_v14 (F := Ideal) x0 x1 x2 x3
      = proj x0 (meanOf
          (segSum scatter_S50000x128_S640000x1_S640000x128_1_0_0_1 bcast_S_S50000x128 bcast_S640000_S640000x1_0 x1 x2)
          (clampedCount scatter_S50000_S640000x1_S640000_n_0_0_1 bcast_S_S50000 bcast_S640000_S640000x1_0 bcast_S_S640000 x2)) x3 := by
  rw [result_eq, seg_is, cnt_is]

end Cert.AggProj.Ref

end
-- ==== Proof.lean ====
/-
  A graph layer: for each of 50000 nodes, the mean of its neighbours' 128 features (the edges' features added up per
  source node, divided by the node's neighbour count clamped below at one) is set beside the node's own 128 features,
  and the 256-entry row is contracted with a 128 x 256 weight matrix.

  The reference does exactly that. The kernel program computes the same segment sums and counts by the same host
  operations, but takes the reciprocal `1 / count` on the host, and in a grid of 25 steps of 2000 rows each
  multiplies the segment sums by it and adds two 128-wide matrix products, one with each transposed half of the
  weight matrix, in place of one 256-wide product.

  On the extended reals the two agree entry by entry:
    * a sum over 256 positions is the sum over the first 128 plus the sum over the last 128;
    * `x * (1 / y) = x / y` whenever `y` is not zero, at the infinities too, and a count clamped below at one is
      not zero.
  Neither needs the inputs to be finite, and the segment sums and counts are never opened: both programs compute
  them by the same operations, so they are carried as one function of the launched arrays.

  The three programs run, fault-free and leaving their arguments as launched, by their generated frames and the
  reference's generated run; the kernel's idealization rewrote nothing.
-/
import proofs.«176925_j54863912239180_1_alg».proof.Defs
import proofs.«176925_j54863912239180_1_alg».proof.Proof.Gen.Kernel
import proofs.«176925_j54863912239180_1_alg».proof.Proof.Gen.Kernel.Skeleton
import proofs.«176925_j54863912239180_1_alg».proof.Proof.Gen.Kernel.Launch
import proofs.«176925_j54863912239180_1_alg».proof.Proof.Gen.Kernel.Points
import proofs.«176925_j54863912239180_1_alg».proof.Proof.Gen.Kernel.Frame
import proofs.«176925_j54863912239180_1_alg».proof.Proof.Gen.KernelIdeal
import proofs.«176925_j54863912239180_1_alg».proof.Proof.Gen.KernelIdeal.Skeleton
import proofs.«176925_j54863912239180_1_alg».proof.Proof.Gen.KernelIdeal.Launch
import proofs.«176925_j54863912239180_1_alg».proof.Proof.Gen.KernelIdeal.Points
import proofs.«176925_j54863912239180_1_alg».proof.Proof.Gen.KernelIdeal.Frame
import proofs.«176925_j54863912239180_1_alg».proof.Proof.Gen.ReferenceIdeal
import proofs.«176925_j54863912239180_1_alg».proof.Proof.Gen.Pre_finite_inputs
import proofs.«176925_j54863912239180_1_alg».proof.Proof.Gen.KernelIdeal.Value
import proofs.«176925_j54863912239180_1_alg».proof.Proof.Gen.ReferenceIdeal.Run
import proofs.«176925_j54863912239180_1_alg».proof.Proof.Gen.ReferenceIdeal.Read
import proofs.«176925_j54863912239180_1_alg».proof.Proof.KernelArr
import proofs.«176925_j54863912239180_1_alg».proof.Proof.RefProj
import Idealize.ShloMosaic.Adequacy
import Idealize.ShloMosaic.Init

noncomputable section

namespace Cert.Proof

open Idealize.ShloMosaic Idealize.ShloMosaic.TcCoe Idealize.SL.Sem

/-! ## The two programs name one scatter layout each; the names denote the same layout -/

theorem seg_layout :
    Cert.ReferenceIdeal.scatter_S50000x128_S640000x1_S640000x128_1_0_0_1
      = Cert.KernelIdeal.scatter_S50000x128_S640000x1_S640000x128_1_0_0_1 := rfl

theorem count_layout :
    Cert.ReferenceIdeal.scatter_S50000_S640000x1_S640000_n_0_0_1
      = Cert.KernelIdeal.scatter_S50000_S640000x1_S640000_n_0_0_1 := rfl

/-! ## The claims -/

theorem frame_kernel : Cert.frame_Kernel := fun m ρ _ => Cert.Kernel.Gen.frame m ρ

theorem frame_kernelIdeal : Cert.frame_KernelIdeal := fun m ρ _ => Cert.KernelIdeal.Gen.frame m ρ

/-- The reference's run, its result dropped. -/
theorem frame_referenceIdeal : Cert.frame_ReferenceIdeal := fun m ρ _ =>
  (θ_run Cert.ReferenceIdeal.defs _ _).mono (fun _ h c => (h c).2) (Cert.ReferenceIdeal.Value.run (F := Ideal) m ρ)

/-- The idealization rewrote no operation. -/
theorem preserves : Cert.preserves_Kernel_KernelIdeal := trivial

/-- Both runs end with the result array at the specification of the launched arrays; the launched arrays agree, and
    the two programs' scatter layouts are one. -/
theorem algebraic : Cert.algebraic_KernelIdeal_ReferenceIdeal := by
  intro m ρ m' ρ' _ hagree
  refine ⟨_, Cert.AggProj.Kernel.run m ρ, ?_⟩
  refine (θ_run Cert.ReferenceIdeal.defs _ _).mono (fun _ h c => ⟨(h c).1.trans ?_, (h c).2⟩)
    (Cert.ReferenceIdeal.Value.run (F := Ideal) m' ρ')
  rw [Cert.ReferenceIdeal.Read.val_main_v14_eq, Cert.AggProj.Ref.result_spec,
    (hagree c).1, (hagree c).2.1, (hagree c).2.2.1, (hagree c).2.2.2, seg_layout, count_layout]

theorem claim : Cert.Claim := ⟨Cert.Kernel.Gen.facts, Cert.KernelIdeal.Gen.facts, Cert.ReferenceIdeal.Gen.facts, Cert.Pre_finite_inputs.Gen.facts,
  frame_kernel, frame_kernelIdeal, frame_referenceIdeal, preserves, algebraic⟩

end Cert.Proof

end
